-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S16384x1024 .f32) (main_arg2 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S16384 : Shape := ⟨1, ![16384]⟩
abbrev S512x1024 : Shape := ⟨2, ![512, 1024]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S512, .f32⟩
  | .local _ .vmem, ⟨6, _⟩ => ⟨S512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  inb_S512_S512_0 : ∀ a, (![0] : Fin 1 → Nat) a + S512.size a ≤ S512.size a
  h_S512 : 0 < S512.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S16384.size a
  hwx0_3 : ∀ i : grid0.Coords, EltTy.bits .f32 = 32 ∨ (Rect.block (s := S16384) S512.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩
abbrev S16384 : Shape := ⟨1, ![16384]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.RowQuad.lean ====
/-
  The squared Mahalanobis form, row by row, on the extended reals.

  For a row `d : Fin 1024 → EReal` and a square matrix `s`, the form is
      quad d s = ∑ j, (∑ k, d k * s k j) * d j,
  the row pushed through the matrix and then paired with itself. The result array of both programs holds, at row `i`,
  this form of the difference row `d k = x i k - y i k`. Nothing here uses a law of the extended reals beyond what a
  sum is: the two programs nest the two sums the same way, so no factor is moved across a sum and no finiteness of the
  entries is asked for.
-/
import Idealize.ShloMosaic.PureOps.Ideal
import Idealize.ShloMosaic.Lib.ValueIdx

noncomputable section

open scoped BigOperators

namespace Cert.RowQuad

open Idealize.ShloMosaic Idealize.ShloMosaic.ValueIdx

/-- The form of one row: `∑ j, (∑ k, d k * s k j) * d j`. -/
def quad (d : Fin 1024 → EReal) (s : Fin 1024 → Fin 1024 → EReal) : EReal :=
  ∑ j : Fin 1024, (∑ k : Fin 1024, d k * s k j) * d j

/-- Row `i` of the difference `x - y` of two arrays of `n` rows. -/
def diffRow {n : Nat} (x y : (⟨2, ![n, 1024]⟩ : Shape).Idx → EReal) (i : Fin n) : Fin 1024 → EReal :=
  fun k => x (ix2 i k) - y (ix2 i k)

/-- A square matrix by its two coordinates. -/
def entries (s : (⟨2, ![1024, 1024]⟩ : Shape).Idx → EReal) : Fin 1024 → Fin 1024 → EReal :=
  fun k j => s (ix2 k j)

/-- The whole result: at row `i` the form of row `i` of `x - y` under `s`. -/
def rows (x y : (⟨2, ![16384, 1024]⟩ : Shape).Idx → EReal) (s : (⟨2, ![1024, 1024]⟩ : Shape).Idx → EReal) :
    (⟨1, ![16384]⟩ : Shape).Idx → EReal :=
  fun i => quad (diffRow x y (i 0)) (entries s)

/-- The form depends on the row and the matrix only through their entries. -/
theorem quad_congr {d d' : Fin 1024 → EReal} {s s' : Fin 1024 → Fin 1024 → EReal}
    (hd : ∀ k, d k = d' k) (hs : ∀ k j, s k j = s' k j) : quad d s = quad d' s' := by
  have e1 : d = d' := funext hd
  have e2 : s = s' := funext fun k => funext fun j => hs k j
  rw [e1, e2]

end Cert.RowQuad

end
-- ==== Proof.RefRows.lean ====
/-
  The reference computes the form row by row.

  The reference subtracts the two arrays, multiplies the difference by the matrix (one contraction over the 1024
  columns of the difference against the 1024 rows of the matrix), multiplies the product entry by entry with the
  difference again and sums each row from zero. Read at row `p`: zero plus the sum over `j` of
  `(∑ k, d k * s k j) * d j` for the difference row `d` — the form `Cert.RowQuad.quad` of that row.
-/
import proofs.«101655_j34187939676803_1_alg».proof.Proof.Gen.ReferenceIdeal.Read
import proofs.«101655_j34187939676803_1_alg».proof.Proof.RowQuad

noncomputable section

open scoped BigOperators

namespace Cert.ReferenceIdeal.RefRows

open Cert.ReferenceIdeal Cert.ReferenceIdeal.Read Idealize.ShloMosaic Idealize.ShloMosaic.ValueIdx Cert.RowQuad

/-- The summed axis of the row sum is the column: term `j` of the sum at row `p` is the product array at `(p, j)`. -/
theorem idx_row (p : Fin 16384) (j : Fin 1024) : idx_main_v3 (ix1 p) j = ix2 p j :=
  funext fun a => Fin.ext (by match a with | ⟨0, _⟩ => rfl | ⟨1, _⟩ => rfl)

/-- The contraction at `(p, j)` runs along row `p` of the difference … -/
theorem lidx_row (p : Fin 16384) (j k : Fin 1024) : lidx_main_v1 (ix2 p j) k = ix2 p k :=
  funext fun a => Fin.ext (by match a with | ⟨0, _⟩ => rfl | ⟨1, _⟩ => rfl)

/-- … and down column `j` of the matrix. -/
theorem ridx_col (p : Fin 16384) (j k : Fin 1024) : ridx_main_v1 (ix2 p j) k = ix2 k j :=
  funext fun a => Fin.ext (by match a with | ⟨0, _⟩ => rfl | ⟨1, _⟩ => rfl)

/-- The reference's result is the form of each row of the difference. -/
theorem ref_rows (x y : (⟨S16384x1024, .f32⟩ : BufTy).Contents (Elt Ideal)) (s : (⟨S1024x1024, .f32⟩ : BufTy).Contents (Elt Ideal)) :
    val_main_v3 (F := Ideal) x y s = rows x y s := by
  funext i
  obtain ⟨p, rfl⟩ : ∃ p : Fin 16384, i = ix1 p := ⟨i 0, eq_ix1 i⟩
  rw [val_main_v3_apply, val_main_cst_apply]
  show Ideal.ofBits .f32 0x00000000#32 + _ = quad (diffRow x y p) (entries s)
  rw [Ideal.ofBits_zero_f32, zero_add]
  unfold quad
  refine Finset.sum_congr rfl fun j _ => ?_
  rw [idx_row, val_main_v2_apply, val_main_v1_apply]
  simp only [lidx_row, ridx_col, val_main_v0_apply]
  rfl

end Cert.ReferenceIdeal.RefRows

end
-- ==== Proof.BlockQuad.lean ====
/-
  What one grid point computes, read at a row of its block.

  A point holds a block of 512 rows of each array and the whole matrix. It subtracts the two blocks, multiplies the
  difference by the matrix (into a zero accumulator: on the extended reals the product entry `(r, j)` is the plain sum
  over `k` of difference `(r, k)` times matrix `(k, j)`; narrowing a factor to a shorter float format changes nothing
  there), multiplies the product entry by entry with the difference and sums each row over its 1024 lanes from zero.
  So row `r` of the point's result is the form `Cert.RowQuad.quad` of row `r` of the block difference.
-/
import proofs.«101655_j34187939676803_1_alg».proof.Proof.Gen.KernelIdeal.Skeleton
import proofs.«101655_j34187939676803_1_alg».proof.Proof.RowQuad
import Idealize.ShloMosaic.Lib.ValueIdx
import Idealize.ShloMosaic.PureOps.Ideal.Laws

noncomputable section

open scoped BigOperators

namespace Cert.KernelIdeal.BlockQuad

open Cert.KernelIdeal Cert.KernelIdeal.Gen Idealize.ShloMosaic Idealize.ShloMosaic.ValueIdx Cert.RowQuad

/-! ## The product's operand indices, axis by axis -/

/-- The left factor's row is the output's row … -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … its column the contracted coordinate; -/
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right factor's row is the contracted coordinate … -/
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and its column the output's column. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into the zero accumulator at entry `(r, j)`: the sum over `k` of left `(r, k)` times right `(k, j)`. -/
theorem prod_apply (a : FVec Ideal S512x1024 .bf16) (b : FVec Ideal S1024x1024 .bf16) (r : Fin 512) (j : Fin 1024) :
    matmul dot_S512x1024_S1024x1024_S512x1024_1_0_0_1_n_n none a b (constant (F := Ideal) S512x1024 .f32 0x00000000#32) (ix2 r j)
      = ∑ k : Fin 1024, a (ix2 r k) * b (ix2 k j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r j) ((contrEquiv1 dot_S512x1024_S1024x1024_S512x1024_1_0_0_1_n_n 1024 rfl rfl).symm k) = ix2 r k := funext fun c => Fin.ext (by
    match c with
    | ⟨0, _⟩ => exact lhs_row _ _
    | ⟨1, _⟩ => exact (lhs_col _ _).trans hk)
  have er : dot_S512x1024_S1024x1024_S512x1024_1_0_0_1_n_n.rhsIdx (ix2 r j) ((contrEquiv1 dot_S512x1024_S1024x1024_S512x1024_1_0_0_1_n_n 1024 rfl rfl).symm k) = ix2 k j := funext fun c => Fin.ext (by
    match c with
    | ⟨0, _⟩ => exact (rhs_row _ _).trans hk
    | ⟨1, _⟩ => exact rhs_col _ _)
  rw [el, er]

/-! ## The lane sum -/

/-- Lane `j` of row `r`: the index the row sum reads is `(r, j)`. -/
theorem lane (r : Fin 512) (j : Fin 1024) : reduces_S512x1024_S512.lift (ix1 r) j = ix2 r j :=
  funext fun c => Fin.ext (by match c with | ⟨0, _⟩ => rfl | ⟨1, _⟩ => rfl)

/-- A block's rows summed over their lanes from zero, at row `r`. -/
theorem rowSum_apply (v : FVec Ideal S512x1024 .f32) (hφ : FKind.Formats .f32) (hacc : (0x00000000#32 : BitVec 32) = 0x00000000#32) (r : Fin 512) :
    multiReduction .add [1] S512 v 0x00000000#32 reduces_S512x1024_S512 hφ hacc (ix1 r) = ∑ j : Fin 1024, v (ix2 r j) := by
  refine (Ideal.multiReduction_add_single v 0x00000000#32 reduces_S512x1024_S512 hφ hacc (ix1 r)).trans ?_
  exact Finset.sum_congr rfl fun j _ => congrArg v (lane r j)

/-! ## The point's result at a row -/

/-- Row `r` of what a point stores is the form of row `r` of its block difference under the matrix it holds. -/
theorem pay_row (x0 x1 : Vec Ideal S512x1024 .f32) (x2 : Vec Ideal S1024x1024 .f32) (r : Fin 512) :
    k0_pay1 (F := Ideal) x0 x1 x2 (ix1 r) = quad (diffRow x0 x1 r) (entries x2) := by
  unfold k0_pay1
  refine (rowSum_apply _ _ _ r).trans ?_
  unfold quad
  refine Finset.sum_congr rfl fun j _ => ?_
  rw [mulf_apply, prod_apply]
  rfl

end Cert.KernelIdeal.BlockQuad

end
-- ==== Proof.KernelRows.lean ====
/-
  The kernel's result array, from its 32 grid points.

  Point `t` holds rows `512 t … 512 t + 511` of each of the two arrays and the whole matrix, and writes back rows
  `512 t … 512 t + 511` of the result. Row `r` of what it writes is the form of row `r` of its block difference
  (`BlockQuad.pay_row`), and row `r` of the block is row `512 t + r` of the array, so the point writes block `t` of
  the one whole-array function `Cert.RowQuad.rows` of the three argument arrays. Row `i` of the result lies in the
  block of point `i / 512`, so the 32 blocks cover the result and the array ends holding `rows`.
-/
import proofs.«101655_j34187939676803_1_alg».proof.Proof.Gen.KernelIdeal.Value
import proofs.«101655_j34187939676803_1_alg».proof.Proof.BlockQuad
import Idealize.ShloMosaic.Lib.Pipeline.Value

noncomputable section

open scoped BigOperators

namespace Cert.KernelIdeal.KernelRows

open Cert.KernelIdeal Cert.KernelIdeal.Gen Cert.KernelIdeal.Value Idealize.ShloMosaic Idealize.ShloMosaic.TcCoe Idealize.SL.Sem
open Idealize.ShloMosaic.ValueIdx Cert.RowQuad Cert.KernelIdeal.BlockQuad
open Idealize.ShloMosaic.Pipeline (Dat)

variable (m : (ℓ : Loc nD τ sig) → Buf (Elt Ideal) ℓ) (ρ : Dev nD → PrngReg)

theorem zero1 : (![0] : Fin 1 → Nat) = fun _ => 0 := funext fun a => by fin_cases a; rfl
theorem zero2 : (![0, 0] : Fin 2 → Nat) = fun _ => 0 := funext fun a => by fin_cases a <;> rfl

/-- Where each window's block sits at point `t`, decided over the 32 points: the two arrays' blocks and the result's
    block are block `t` along the rows, and the matrix's block is the whole matrix. -/
theorem block_at : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-! ## The arrays and the blocks by their literal types -/

abbrev xarr (c : Dev nD) : Vec Ideal S16384x1024 .f32 := V m c main_arg0
abbrev yarr (c : Dev nD) : Vec Ideal S16384x1024 .f32 := V m c main_arg1
abbrev sarr (c : Dev nD) : Vec Ideal S1024x1024 .f32 := V m c main_arg2
abbrev xblk (c : Dev nD) (t : Fin cfg0.N) : Vec Ideal S512x1024 .f32 := iblk m c 0 t
abbrev yblk (c : Dev nD) (t : Fin cfg0.N) : Vec Ideal S512x1024 .f32 := iblk m c 1 t
abbrev sblk (c : Dev nD) (t : Fin cfg0.N) : Vec Ideal S1024x1024 .f32 := iblk m c 2 t

/-- Row `r` of the first array's block at point `t` is row `512 t + r` of the array. -/
theorem xblk_apply (c : Dev nD) (t : Fin cfg0.N) (r : Fin 512) (k : Fin 1024) (R : Fin 16384) (hR : R.val = t.val * 512 + r.val) :
    xblk m c t (ix2 r k) = xarr m c (ix2 R k) := by
  obtain ⟨e0, e1, -⟩ := block_at t
  show iblk m c 0 t (ix2 r k) = V m c main_arg0 (ix2 R k)
  unfold iblk
  rw [View.read_apply]
  show V m c main_arg0 _ = V m c main_arg0 _
  congr 1
  funext a
  apply Fin.ext
  match a with
  | ⟨0, _⟩ => show win0_0.index t (0 : Fin 2) * 512 + 1 * r.val = R.val; rw [e0, hR]; omega
  | ⟨1, _⟩ => show win0_0.index t (1 : Fin 2) * 1024 + 1 * k.val = k.val; rw [e1]; omega

/-- The same for the second array. -/
theorem yblk_apply (c : Dev nD) (t : Fin cfg0.N) (r : Fin 512) (k : Fin 1024) (R : Fin 16384) (hR : R.val = t.val * 512 + r.val) :
    yblk m c t (ix2 r k) = yarr m c (ix2 R k) := by
  obtain ⟨-, -, e0, e1, -⟩ := block_at t
  show iblk m c 1 t (ix2 r k) = V m c main_arg1 (ix2 R k)
  unfold iblk
  rw [View.read_apply]
  show V m c main_arg1 _ = V m c main_arg1 _
  congr 1
  funext a
  apply Fin.ext
  match a with
  | ⟨0, _⟩ => show win0_1.index t (0 : Fin 2) * 512 + 1 * r.val = R.val; rw [e0, hR]; omega
  | ⟨1, _⟩ => show win0_1.index t (1 : Fin 2) * 1024 + 1 * k.val = k.val; rw [e1]; omega

/-- Every point's matrix block is the matrix. -/
theorem sblk_apply (c : Dev nD) (t : Fin cfg0.N) (k j : Fin 1024) :
    sblk m c t (ix2 k j) = sarr m c (ix2 k j) := by
  obtain ⟨-, -, -, -, e0, e1, -⟩ := block_at t
  show iblk m c 2 t (ix2 k j) = V m c main_arg2 (ix2 k j)
  unfold iblk
  rw [View.read_apply]
  show V m c main_arg2 _ = V m c main_arg2 _
  congr 1
  funext a
  apply Fin.ext
  match a with
  | ⟨0, _⟩ => show win0_2.index t (0 : Fin 2) * 1024 + 1 * k.val = k.val; rw [e0]; omega
  | ⟨1, _⟩ => show win0_2.index t (1 : Fin 2) * 1024 + 1 * j.val = j.val; rw [e1]; omega

/-! ## What a point writes is its block of `rows` -/

/-- Row `y` of what point `t` stores is row `512 t + y` of `rows` of the three arrays. -/
theorem point_rows (c : Dev nD) (t : Fin cfg0.N) (y : S512.Idx) (i : S16384.Idx) (hi : (i 0).val = t.val * 512 + (y 0).val) :
    k0_pay1 (F := Ideal) (xblk m c t) (yblk m c t) (sblk m c t) y = rows (xarr m c) (yarr m c) (sarr m c) i := by
  obtain ⟨r, rfl⟩ : ∃ r : Fin 512, y = ix1 r := ⟨y 0, eq_ix1 y⟩
  obtain ⟨R, rfl⟩ : ∃ R : Fin 16384, i = ix1 R := ⟨i 0, eq_ix1 i⟩
  have hR : R.val = t.val * 512 + r.val := hi
  refine (pay_row (xblk m c t) (yblk m c t) (sblk m c t) r).trans ?_
  show quad (diffRow (xblk m c t) (yblk m c t) r) (entries (sblk m c t)) = quad (diffRow (xarr m c) (yarr m c) R) (entries (sarr m c))
  refine quad_congr (fun k => ?_) (fun k j => sblk_apply m c t k j)
  show xblk m c t (ix2 r k) - yblk m c t (ix2 r k) = xarr m c (ix2 R k) - yarr m c (ix2 R k)
  rw [xblk_apply m c t r k R hR, yblk_apply m c t r k R hR]

/-- WHAT POINT `t` WRITES BACK is block `t` of `rows` of the argument arrays. -/
theorem flushed_eq (c : Dev nD) (t : Fin cfg0.N) :
    (dats m 0 c).flushed 3 t = ((cfg0.win 3).blk t).view.read (Elt Ideal) (rows (xarr m c) (yarr m c) (sarr m c)) := by
  rw [Value.flushed3]
  unfold out0_3
  rw [View.canon_unit_zero zero1]
  simp only [View.ld_unit_zero (S := S512x1024) zero2, View.ld_unit_zero (S := S1024x1024) zero2]
  obtain ⟨-, -, -, -, -, -, e⟩ := block_at t
  funext y
  show k0_pay1 (F := Ideal) (xblk m c t) (yblk m c t) (sblk m c t) y = rows (xarr m c) (yarr m c) (sarr m c) (((cfg0.win 3).blk t).view.emb y)
  refine point_rows m c t y _ ?_
  show win0_3.index t (0 : Fin 1) * 512 + 1 * (y 0).val = t.val * 512 + (y 0).val
  rw [e]; omega

/-! ## The 32 blocks cover the result -/

/-- A row of the result is in point `t`'s block iff it lies among that block's 512 rows. -/
theorem mem_blk (t : Fin cfg0.N) (i : S16384.Idx) :
    i ∈ ((cfg0.win 3).blk t).view.set ↔ ∀ a : Fin 1, win0_3.index t a * S512.size a ≤ (i a).val ∧ (i a).val < win0_3.index t a * S512.size a + S512.size a := by
  show i ∈ ((View.whole main_v0).slice (win0_3.rect t)).set ↔ _
  rw [View.set_slice_whole, Rect.mem_set_unit]
  exact Iff.rfl

/-- Row `i` is in the block of point `i / 512`. -/
theorem cover (i : S16384.Idx) : ∃ t : Fin cfg0.N, (cfg0.win 3).flush t = true ∧ i ∈ ((cfg0.win 3).blk t).view.set := by
  have hi : (i 0).val < 16384 := (i 0).isLt
  have hN : cfg0.N = 32 := N_0
  have ht : (i 0).val / 512 < cfg0.N := by rw [hN]; omega
  obtain ⟨-, -, -, -, -, -, e⟩ := block_at ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 1) * 512 ≤ (i 0).val ∧ (i 0).val < win0_3.index ⟨(i 0).val / 512, ht⟩ (0 : Fin 1) * 512 + 512
    rw [e]
    show (i 0).val / 512 * 512 ≤ (i 0).val ∧ (i 0).val < (i 0).val / 512 * 512 + 512
    omega

/-- So the result array ends holding `rows` of the argument arrays. -/
theorem final (c : Dev nD) :
    (dats m 0 c).arrAt 3 cfg0.N = rows (m ((c : Thread nD τ).loc main_arg0)) (m ((c : Thread nD τ).loc main_arg1)) (m ((c : Thread nD τ).loc main_arg2)) :=
  (dats m 0 c).arrAt_eq_of_cover 3 (rows (xarr m c) (yarr m c) (sarr m c)) (fun t _ => flushed_eq m c t) cover

/-- The kernel's run, read: the result at `rows` of the arguments, the arguments unchanged. -/
theorem run : θ_run defs (onTc (τ := τ) (main (F := Ideal))) ⟨m, fun _ => 0, ρ⟩ fun r => ∀ c : Dev nD,
      r.2.mem ((c : Thread nD τ).loc main_v0) = rows (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelRows

end
-- ==== Proof.lean ====
/-
  The squared Mahalanobis distance of each row: for arrays `x`, `x_fit` of 16384 rows of 1024 entries and a
  1024 × 1024 matrix `S_inv`, row `i` of the result is

      ∑ j, (∑ k, (x i k - x_fit i k) * S_inv k j) * (x i j - x_fit i j).

  The kernel walks the rows in 32 blocks of 512; at each block it subtracts, multiplies the difference by the whole
  matrix into a zero accumulator (the factors narrowed to a shorter float format, which on the extended reals is the
  identity), multiplies entry by entry with the difference and sums each row over its lanes from zero. The reference
  does the same four steps once on the whole arrays. On the extended reals both are the same nesting of the same two
  sums, the outer from zero, so the two results agree entry by entry with no law of arithmetic beyond `0 + a = a`,
  and the finiteness of the inputs is never used.

  `Proof/RowQuad.lean` states the form; `Proof/RefRows.lean` reads the reference's last stage as it;
  `Proof/BlockQuad.lean` reads one grid point's stored row as it; `Proof/KernelRows.lean` places the 32 blocks in the
  result array. The kernel's sanctioned idealization rewrote no operation, so that conjunct is `True`.
-/
import proofs.«101655_j34187939676803_1_alg».proof.Defs
import proofs.«101655_j34187939676803_1_alg».proof.Proof.Gen.Kernel
import proofs.«101655_j34187939676803_1_alg».proof.Proof.Gen.Kernel.Skeleton
import proofs.«101655_j34187939676803_1_alg».proof.Proof.Gen.Kernel.Launch
import proofs.«101655_j34187939676803_1_alg».proof.Proof.Gen.Kernel.Points
import proofs.«101655_j34187939676803_1_alg».proof.Proof.Gen.Kernel.Frame
import proofs.«101655_j34187939676803_1_alg».proof.Proof.Gen.KernelIdeal
import proofs.«101655_j34187939676803_1_alg».proof.Proof.Gen.KernelIdeal.Skeleton
import proofs.«101655_j34187939676803_1_alg».proof.Proof.Gen.KernelIdeal.Launch
import proofs.«101655_j34187939676803_1_alg».proof.Proof.Gen.KernelIdeal.Points
import proofs.«101655_j34187939676803_1_alg».proof.Proof.Gen.KernelIdeal.Frame
import proofs.«101655_j34187939676803_1_alg».proof.Proof.Gen.ReferenceIdeal
import proofs.«101655_j34187939676803_1_alg».proof.Proof.Gen.Pre_finite_inputs
import proofs.«101655_j34187939676803_1_alg».proof.Proof.Gen.KernelIdeal.Value
import proofs.«101655_j34187939676803_1_alg».proof.Proof.Gen.ReferenceIdeal.Run
import proofs.«101655_j34187939676803_1_alg».proof.Proof.Gen.ReferenceIdeal.Read
import proofs.«101655_j34187939676803_1_alg».proof.Proof.RowQuad
import proofs.«101655_j34187939676803_1_alg».proof.Proof.RefRows
import proofs.«101655_j34187939676803_1_alg».proof.Proof.BlockQuad
import proofs.«101655_j34187939676803_1_alg».proof.Proof.KernelRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at `Cert.RowQuad.rows` of their arguments, and the arguments agree. -/
theorem algebraic : Cert.algebraic_KernelIdeal_ReferenceIdeal := by
  intro m ρ m' ρ' _ hagree
  refine ⟨fun c => Cert.RowQuad.rows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KernelRows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefRows.ref_rows,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
